-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S1x8192x32 : Shape := ⟨3, ![1, 8192, 32]⟩
abbrev S1x8192 : Shape := ⟨2, ![1, 8192]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S1x8192x32 : S_.BroadcastsInDim S1x8192x32 (![] : Fin 0 → Fin S1x8192x32.rank)
  reducesTo_S1x8192x32_S_d0_1_2 : S1x8192x32.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x32 .f32) (main_arg1 : FVec F S1x8192x32 .f32) (main_arg2 : FVec F S1x8192 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S1x8192x32 .f32 := Host.absf main_arg1
  let main_cst_0 : FVec F S_ .f32 := constant S_ .f32 0x7F800000#32
  let main_v5 : FVec F S1x8192x32 .f32 := broadcastInDim S1x8192x32 ![] bcast_S_S1x8192x32 main_cst_0
  let main_v6 : IVec S1x8192x32 1 := cmpf .olt main_v4 main_v5
  let main_c_1 : IVec S_ 1 := constantI S_ 1 1#1
  let main_v7 : IVec S_ 1 := (fun x v => Host.reduce IntOp.andi x v reducesTo_S1x8192x32_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x32 : Shape := ⟨2, ![4096, 32]⟩
abbrev S1x8192x32 : Shape := ⟨3, ![1, 8192, 32]⟩
abbrev S1x8192 : Shape := ⟨2, ![1, 8192]⟩
abbrev S8192x32 : Shape := ⟨2, ![8192, 32]⟩
abbrev S4096 : Shape := ⟨1, ![4096]⟩
abbrev S256x32 : Shape := ⟨2, ![256, 32]⟩
abbrev S256 : Shape := ⟨1, ![256]⟩
abbrev S8192 : Shape := ⟨1, ![8192]⟩
abbrev S256x8192 : Shape := ⟨2, ![256, 8192]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S1x8192x32, .f32⟩
  | .hbm, ⟨2, _⟩ => ⟨S1x8192, .f32⟩
  | .hbm, ⟨3, _⟩ => ⟨S8192x32, .f32⟩
  | .hbm, ⟨4, _⟩ => ⟨S4096x32, .f32⟩
  | .hbm, ⟨5, _⟩ => ⟨S4096, .f32⟩
  | .local _ .vmem, ⟨0, _⟩ => ⟨S256x32, .f32⟩
  | .local _ .vmem, ⟨1, _⟩ => ⟨S256x32, .f32⟩
  | .local _ .vmem, ⟨2, _⟩ => ⟨S8192x32, .f32⟩
  | .local _ .vmem, ⟨3, _⟩ => ⟨S1x8192, .f32⟩
  | .local _ .vmem, ⟨4, _⟩ => ⟨S256x32, .f32⟩
  | .local _ .vmem, ⟨5, _⟩ => ⟨S256x32, .f32⟩
  | .local _ .vmem, ⟨6, _⟩ => ⟨S256, .f32⟩
  | .local _ .vmem, ⟨7, _⟩ => ⟨S256, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x8192x32_S8192x32 : S1x8192x32.ShapeCasts S8192x32
  inb_S256x32_S256x32_0_0 : ∀ a, (![0, 0] : Fin 2 → Nat) a + S256x32.size a ≤ S256x32.size a
  h_S256x32 : 0 < S256x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S1x8192_S1x8192_0_0 : ∀ a, (![0, 0] : Fin 2 → Nat) a + S1x8192.size a ≤ S1x8192.size a
  h_S1x8192 : 0 < S1x8192.numel
  reduces_S8192x32_S8192 : S8192x32.Reduces [1] S8192
  shapeCasts_S1x8192_S8192 : S1x8192.ShapeCasts S8192
  shapeCasts_S8192_S1x8192 : S8192.ShapeCasts S1x8192
  broadcasts_S1x8192_S256x8192 : S1x8192.Broadcasts S256x8192
  reduces_S256x8192_S256 : S256x8192.Reduces [1] S256
  shapeCasts_S256_S256x1 : S256.ShapeCasts S256x1
  broadcasts_S256x1_S256x8192 : S256x1.Broadcasts S256x8192
  reduces_S256x32_S256 : S256x32.Reduces [1] S256
  shapeCasts_S256x1_S256 : S256x1.ShapeCasts S256
  inb_S256_S256_0 : ∀ a, (![0] : Fin 1 → Nat) a + S256.size a ≤ S256.size a
  h_S256 : 0 < S256.numel
  broadcasts_S256x1_S256x32 : S256x1.Broadcasts S256x32
  dot_S256x32_S8192x32_S256x8192_1_1_0_0_n_n_wf : DotDims.WF S256x32 S8192x32 S256x8192 [1] [1] [0] [0] [] []
  dot_S256x8192_S8192x32_S256x32_1_0_0_1_n_n_wf : DotDims.WF S256x8192 S8192x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S4096x32.size a
  hwx0_0 : ∀ i : grid0.Coords, EltTy.bits .f32 = 32 ∨ (Rect.block (s := S4096x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S4096x32.size a
  hwx0_3 : ∀ i : grid0.Coords, EltTy.bits .f32 = 32 ∨ (Rect.block (s := S4096x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)

variable [Facts₀]

def dot_S256x32_S8192x32_S256x8192_1_1_0_0_n_n : DotDims S256x32 S8192x32 S256x8192 where
  lhsContracting := [1]
  rhsContracting := [1]
  lhsNonContracting := [0]
  rhsNonContracting := [0]
  lhsBatch := []
  rhsBatch := []
  wf := dot_S256x32_S8192x32_S256x8192_1_1_0_0_n_n_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x32 : Shape := ⟨2, ![4096, 32]⟩
abbrev S1x8192x32 : Shape := ⟨3, ![1, 8192, 32]⟩
abbrev S1x8192 : Shape := ⟨2, ![1, 8192]⟩
abbrev S8192x32 : Shape := ⟨2, ![8192, 32]⟩
abbrev S_ : Shape := ⟨0, ![]⟩
abbrev S4096 : Shape := ⟨1, ![4096]⟩
abbrev S4096x1 : Shape := ⟨2, ![4096, 1]⟩
abbrev S8192 : Shape := ⟨1, ![8192]⟩
abbrev S32x8192 : Shape := ⟨2, ![32, 8192]⟩
abbrev S4096x8192 : Shape := ⟨2, ![4096, 8192]⟩

abbrev nBuf : Space → Nat
  | .hbm => 45
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S1x8192x32, .f32⟩
  | .hbm, ⟨2, _⟩ => ⟨S1x8192, .f32⟩
  | .hbm, ⟨3, _⟩ => ⟨S8192x32, .f32⟩
  | .hbm, ⟨4, _⟩ => ⟨S4096x32, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S_, .f32⟩
  | .hbm, ⟨43, _⟩ => ⟨S4096, .f32⟩
  | .hbm, ⟨44, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  shapeCasts_S1x8192x32_S8192x32 : S1x8192x32.ShapeCasts S8192x32
  reducesTo_S4096x32_S4096_d1 : S4096x32.ReducesTo [1] S4096
  h_S_ : 0 < S_.numel
  bcast_S4096_S4096x1_0 : S4096.BroadcastsInDim S4096x1 (![0] : Fin 1 → Fin S4096x1.rank)
  reducesTo_S8192x32_S8192_d1 : S8192x32.ReducesTo [1] S8192
  bcast_S8192_S1x8192_1 : S8192.BroadcastsInDim S1x8192 (![1] : Fin 1 → Fin S1x8192.rank)
  transposes_S8192x32_S32x8192_1_0 : S8192x32.Transposes [1, 0] S32x8192
  bcast_S_S4096x8192 : S_.BroadcastsInDim S4096x8192 (![] : Fin 0 → Fin S4096x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  bcast_S_S4096 : S_.BroadcastsInDim S4096 (![] : Fin 0 → Fin S4096.rank)
  dot_S4096x32_S32x8192_S4096x8192_1_0_0_1_n_n_wf : DotDims.WF S4096x32 S32x8192 S4096x8192 [1] [0] [0] [1] [] []
  dot_S4096x8192_S8192x32_S4096x32_1_0_0_1_n_n_wf : DotDims.WF S4096x8192 S8192x32 S4096x32 [1] [0] [0] [1] [] []

variable [Facts₀]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def dot_S4096x8192_S8192x32_S4096x32_1_0_0_1_n_n : DotDims S4096x8192 S8192x32 S4096x32 where
  lhsContracting := [1]
  rhsContracting := [0]
  lhsNonContracting := [0]
  rhsNonContracting := [1]
  lhsBatch := []
  rhsBatch := []
  wf := dot_S4096x8192_S8192x32_S4096x32_1_0_0_1_n_n_wf

class Facts : Prop extends Facts₀ where

variable [Facts]
-- ==== Proof.SoftSelect.lean ====
/-
  The two programs as functions of ONE row of X, of the candidate table Y and of the intercept row, on the
  extended reals.

  For a row x (32 entries), candidates y (8192 rows of 32 entries) and intercepts b (8192 entries), the
  kernel computes, per candidate k, the shifted score
      s k = 2 * <x, y k> - (|y k|^2 + b k),
  its row maximum m, the unnormalized weights e k = exp (50 * (s k - m)), their sum, and returns
      (sum_k e k * s k) / (sum_k e k) - |x|^2      and      (sum_k e k * y k q) / (sum_k e k).
  The reference computes the true score
      r k = -((|x|^2 - 2 * <x, y k>) + |y k|^2) - b k   ( = s k - |x|^2 on the reals),
  the softmax of 50 * r along k (shifted by its own maximum), and returns
      sum_k softmax k * r k      and      sum_k softmax k * y k q.
  The definitions below spell both, operation by operation, in the order the programs apply them.
-/
import Idealize.ShloMosaic.PureOps.Ideal
import Idealize.ShloMosaic.PureOps.Ideal.Laws

noncomputable section

namespace Cert.SoftSelect

open Idealize.ShloMosaic

/-- The literal 2.0. -/
abbrev two : EReal := Ideal.ofBits .f32 0x40000000#32
/-- The literal 50.0, the softmax temperature. -/
abbrev fifty : EReal := Ideal.ofBits .f32 0x42480000#32
/-- The literal -inf both maxima start from. -/
abbrev negInf : EReal := Ideal.ofBits .f32 0xFF800000#32

variable (x : Fin 32 → EReal) (y : Fin 8192 → Fin 32 → EReal) (b : Fin 8192 → EReal)

/-! ## The kernel's row -/

/-- The kernel's shifted score of candidate `k`: `2 <x, y k> - (|y k|^2 + b k)`. -/
def kScore (k : Fin 8192) : EReal := two * (∑ d : Fin 32, x d * y k d) - ((∑ d : Fin 32, y k d * y k d) + b k)

/-- The row maximum of the shifted scores. -/
def kMax : EReal := (Finset.univ : Finset (Fin 8192)).fold max negInf (fun k => kScore x y b k)

/-- The unnormalized weight of candidate `k`. -/
def kWeight (k : Fin 8192) : EReal := Ideal.exp (fifty * (kScore x y b k - kMax x y b))

/-- The sum of the unnormalized weights. -/
def kNorm : EReal := ∑ k : Fin 8192, kWeight x y b k

/-- The kernel's value output for the row: the weighted mean of the shifted scores, minus `|x|^2`. -/
def kValue : EReal :=
  Ideal.div (∑ k : Fin 8192, kWeight x y b k * kScore x y b k) (kNorm x y b) - ∑ d : Fin 32, x d * x d

/-- The kernel's selection output for the row at column `q`: the weighted mean of the candidates. -/
def kChoice (q : Fin 32) : EReal := Ideal.div (∑ k : Fin 8192, kWeight x y b k * y k q) (kNorm x y b)

/-! ## The reference's row -/

/-- The reference's score of candidate `k`: `-((|x|^2 - 2 <x, y k>) + |y k|^2) - b k`. -/
def rScore (k : Fin 8192) : EReal :=
  -(((∑ d : Fin 32, x d * x d) - two * (∑ d : Fin 32, x d * y k d)) + (∑ d : Fin 32, y k d * y k d)) - b k

/-- The maximum the softmax shifts by: of the scores times the temperature, taken once more against -inf. -/
def rMax : EReal :=
  max negInf ((Finset.univ : Finset (Fin 8192)).fold max negInf (fun k => fifty * rScore x y b k))

/-- The softmax's numerator at candidate `k`. -/
def rWeight (k : Fin 8192) : EReal := Ideal.exp (fifty * rScore x y b k - rMax x y b)

/-- The softmax's denominator. -/
def rNorm : EReal := ∑ k : Fin 8192, rWeight x y b k

/-- The softmax weight of candidate `k`. -/
def rProb (k : Fin 8192) : EReal := Ideal.div (rWeight x y b k) (rNorm x y b)

/-- The reference's value output for the row. -/
def rValue : EReal := ∑ k : Fin 8192, rProb x y b k * rScore x y b k

/-- The reference's selection output for the row at column `q`. -/
def rChoice (q : Fin 32) : EReal := ∑ k : Fin 8192, rProb x y b k * y k q

end Cert.SoftSelect

end
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  The kernel body's payloads read at an index, on the extended reals.

  The body loads a block of 256 rows of X (v0), the whole candidate table (v1) and the intercept row (v3).
  Every value it stores for row p of the block depends on that row alone: the shifted scores
  2 <x_p, y_k> - (|y_k|^2 + b_k), their maximum over k, the exponential weights, their sum, and the two
  weighted means. Each lemma below reads one payload at (p, k), at p or at (p, q) as the corresponding
  row function of the specification, applied to row p of the block.
-/
import proofs.«157892_g22308060135433_cont_8to1_1792_2_alg».proof.Proof.Gen.KernelIdeal.Skeleton
import proofs.«157892_g22308060135433_cont_8to1_1792_2_alg».proof.Proof.SoftSelect
import proofs.«157892_g22308060135433_cont_8to1_1792_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelRow

open Idealize.ShloMosaic Idealize.ShloMosaic.ValueIdx Cert.KernelIdeal Cert.KernelIdeal.Gen Cert.SoftSelect

/-! ## The two contractions' operand indices -/

theorem lhs_xy_0 (i : S256x8192.Idx) (q : dot_S256x32_S8192x32_S256x8192_1_1_0_0_n_n.contr.Idx) :
    (dot_S256x32_S8192x32_S256x8192_1_1_0_0_n_n.lhsIdx i q 0).val = (i 0).val := by
  unfold DotDims.lhsIdx
  rw [dif_neg (show ¬(0 : Fin S256x32.rank) ∈ dot_S256x32_S8192x32_S256x8192_1_1_0_0_n_n.lhsBatch by decide), dif_pos (show (0 : Fin S256x32.rank) ∈ dot_S256x32_S8192x32_S256x8192_1_1_0_0_n_n.lhsNonContracting by decide)]
  rfl
theorem lhs_xy_1 (i : S256x8192.Idx) (q : dot_S256x32_S8192x32_S256x8192_1_1_0_0_n_n.contr.Idx) :
    (dot_S256x32_S8192x32_S256x8192_1_1_0_0_n_n.lhsIdx i q 1).val = (q ⟨0, by decide⟩).val :=
  dot_S256x32_S8192x32_S256x8192_1_1_0_0_n_n.lhsIdx_val_of_single rfl i q
theorem rhs_xy_0 (i : S256x8192.Idx) (q : dot_S256x32_S8192x32_S256x8192_1_1_0_0_n_n.contr.Idx) :
    (dot_S256x32_S8192x32_S256x8192_1_1_0_0_n_n.rhsIdx i q 0).val = (i 1).val := by
  unfold DotDims.rhsIdx
  rw [dif_neg (show ¬(0 : Fin S8192x32.rank) ∈ dot_S256x32_S8192x32_S256x8192_1_1_0_0_n_n.rhsBatch by decide), dif_pos (show (0 : Fin S8192x32.rank) ∈ dot_S256x32_S8192x32_S256x8192_1_1_0_0_n_n.rhsNonContracting by decide)]
  rfl
theorem rhs_xy_1 (i : S256x8192.Idx) (q : dot_S256x32_S8192x32_S256x8192_1_1_0_0_n_n.contr.Idx) :
    (dot_S256x32_S8192x32_S256x8192_1_1_0_0_n_n.rhsIdx i q 1).val = (q ⟨0, by decide⟩).val :=
  dot_S256x32_S8192x32_S256x8192_1_1_0_0_n_n.rhsIdx_val_of_single rfl i q

theorem lhs_ey_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
theorem lhs_ey_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem rhs_ey_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem rhs_ey_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl

/-! ## The non-pointwise operations at an index -/

/-- The inner products of the block's rows with the candidates: entry (p, k) is the sum over d of x p d * y k d. -/
theorem xy_at (a : FVec Ideal S256x32 .f32) (y : FVec Ideal S8192x32 .f32) (p : Fin 256) (k : Fin 8192) :
    matmul dot_S256x32_S8192x32_S256x8192_1_1_0_0_n_n none a y (constant (F := Ideal) S256x8192 .f32 0x00000000#32) (ix2 p k)
      = ∑ d : Fin 32, a (ix2 p d) * y (ix2 k d) := by
  simp only [matmul]
  rw [Ideal.matmul_constant_zero_apply, ← Equiv.sum_comp (ValueIdx.contrEquiv1 dot_S256x32_S8192x32_S256x8192_1_1_0_0_n_n 32 rfl rfl).symm]
  refine Finset.sum_congr rfl fun d _ => ?_
  have hd := ValueIdx.contrEquiv1_symm_val dot_S256x32_S8192x32_S256x8192_1_1_0_0_n_n 32 rfl rfl d
  have el : dot_S256x32_S8192x32_S256x8192_1_1_0_0_n_n.lhsIdx (ix2 p k) ((ValueIdx.contrEquiv1 dot_S256x32_S8192x32_S256x8192_1_1_0_0_n_n 32 rfl rfl).symm d) = ix2 p d := funext fun ax => Fin.ext (by
    match ax with
    | ⟨0, _⟩ => exact lhs_xy_0 _ _
    | ⟨1, _⟩ => exact (lhs_xy_1 _ _).trans hd)
  have er : dot_S256x32_S8192x32_S256x8192_1_1_0_0_n_n.rhsIdx (ix2 p k) ((ValueIdx.contrEquiv1 dot_S256x32_S8192x32_S256x8192_1_1_0_0_n_n 32 rfl rfl).symm d) = ix2 k d := funext fun ax => Fin.ext (by
    match ax with
    | ⟨0, _⟩ => exact rhs_xy_0 _ _
    | ⟨1, _⟩ => exact (rhs_xy_1 _ _).trans hd)
  rw [el, er]

/-- The weights contracted with the candidates: entry (p, q) is the sum over k of e p k * y k q. -/
theorem ey_at (e : FVec Ideal S256x8192 .f32) (y : FVec Ideal S8192x32 .f32) (p : Fin 256) (q : Fin 32) :
    matmul dot_S256x8192_S8192x32_S256x32_1_0_0_1_n_n none e y (constant (F := Ideal) S256x32 .f32 0x00000000#32) (ix2 p q)
      = ∑ k : Fin 8192, e (ix2 p k) * y (ix2 k q) := by
  simp only [matmul]
  rw [Ideal.matmul_constant_zero_apply, ← Equiv.sum_comp (ValueIdx.contrEquiv1 dot_S256x8192_S8192x32_S256x32_1_0_0_1_n_n 8192 rfl rfl).symm]
  refine Finset.sum_congr rfl fun k _ => ?_
  have hk := ValueIdx.contrEquiv1_symm_val dot_S256x8192_S8192x32_S256x32_1_0_0_1_n_n 8192 rfl rfl k
  have el : dot_S256x8192_S8192x32_S256x32_1_0_0_1_n_n.lhsIdx (ix2 p q) ((ValueIdx.contrEquiv1 dot_S256x8192_S8192x32_S256x32_1_0_0_1_n_n 8192 rfl rfl).symm k) = ix2 p k := funext fun ax => Fin.ext (by
    match ax with
    | ⟨0, _⟩ => exact lhs_ey_0 _ _
    | ⟨1, _⟩ => exact (lhs_ey_1 _ _).trans hk)
  have er : dot_S256x8192_S8192x32_S256x32_1_0_0_1_n_n.rhsIdx (ix2 p q) ((ValueIdx.contrEquiv1 dot_S256x8192_S8192x32_S256x32_1_0_0_1_n_n 8192 rfl rfl).symm k) = ix2 k q := funext fun ax => Fin.ext (by
    match ax with
    | ⟨0, _⟩ => exact (rhs_ey_0 _ _).trans hk
    | ⟨1, _⟩ => exact rhs_ey_1 _ _)
  rw [el, er]

/-- A sum along the 32 columns of the candidate table, at candidate k. -/
theorem sum_cols_y (z : FVec Ideal S8192x32 .f32) (k : Fin 8192) :
    multiReduction .add [1] S8192 z 0x00000000#32 reduces_S8192x32_S8192 (.inl rfl) rfl (ix1 k) = ∑ d : Fin 32, z (ix2 k d) := by
  refine (Ideal.multiReduction_add_single z 0x00000000#32 reduces_S8192x32_S8192 (.inl rfl) rfl (ix1 k)).trans ?_
  refine Finset.sum_congr rfl fun d _ => ?_
  exact congrArg z (funext fun ax => Fin.ext (by match ax with | ⟨0, _⟩ => rfl | ⟨1, _⟩ => rfl))

/-- A sum along the 32 columns of the block of X, at row p. -/
theorem sum_cols_x (z : FVec Ideal S256x32 .f32) (p : Fin 256) :
    multiReduction .add [1] S256 z 0x00000000#32 reduces_S256x32_S256 (.inl rfl) rfl (ix1 p) = ∑ d : Fin 32, z (ix2 p d) := by
  refine (Ideal.multiReduction_add_single z 0x00000000#32 reduces_S256x32_S256 (.inl rfl) rfl (ix1 p)).trans ?_
  refine Finset.sum_congr rfl fun d _ => ?_
  exact congrArg z (funext fun ax => Fin.ext (by match ax with | ⟨0, _⟩ => rfl | ⟨1, _⟩ => rfl))

/-- A sum along the 8192 candidates, at row p. -/
theorem sum_cands (z : FVec Ideal S256x8192 .f32) (p : Fin 256) :
    multiReduction .add [1] S256 z 0x00000000#32 reduces_S256x8192_S256 (.inl rfl) rfl (ix1 p) = ∑ k : Fin 8192, z (ix2 p k) := by
  refine (Ideal.multiReduction_add_single z 0x00000000#32 reduces_S256x8192_S256 (.inl rfl) rfl (ix1 p)).trans ?_
  refine Finset.sum_congr rfl fun k _ => ?_
  exact congrArg z (funext fun ax => Fin.ext (by match ax with | ⟨0, _⟩ => rfl | ⟨1, _⟩ => rfl))

/-- The maximum along the 8192 candidates, at row p: the fold of max from -inf. -/
theorem max_cands (z : FVec Ideal S256x8192 .f32) (p : Fin 256) :
    multiReduction .maximumf [1] S256 z 0xFF800000#32 reduces_S256x8192_S256 (.inl rfl) rfl (ix1 p)
      = (Finset.univ : Finset (Fin 8192)).fold max negInf (fun k => z (ix2 p k)) := by
  refine (Ideal.multiReduction_maximumf_single z 0xFF800000#32 reduces_S256x8192_S256 (.inl rfl) rfl (ix1 p)).trans ?_
  show (Finset.univ : Finset (Fin 8192)).fold max negInf _ = _
  congr 1
  funext k
  exact congrArg z (funext fun ax => Fin.ext (by match ax with | ⟨0, _⟩ => rfl | ⟨1, _⟩ => rfl))

end Cert.KernelIdeal.KernelRow

end
-- ==== Proof.KernelPayload.lean ====
/-
  The kernel body's stored values for one row of the block.

  With x the block's row p, y the candidate table and b the intercept row, the body's intermediate
  values at row p are the specification's row functions: the shifted score at (p, k), the exponential
  weight at (p, k), the weights' sum at p; and its two stored values are the weighted mean of the
  scores minus |x|^2 (at p) and the weighted mean of the candidates (at (p, q)).
-/
import proofs.«157892_g22308060135433_cont_8to1_1792_2_alg».proof.Proof.KernelRow

noncomputable section

namespace Cert.KernelIdeal.KernelRow

open Idealize.ShloMosaic Idealize.ShloMosaic.ValueIdx Cert.KernelIdeal Cert.KernelIdeal.Gen Cert.SoftSelect

variable (v0 : FVec Ideal S256x32 .f32) (v1 : FVec Ideal S8192x32 .f32) (v3 : FVec Ideal S1x8192 .f32)

/-- Row `p` of the block of X. -/
abbrev rowOf (p : Fin 256) : Fin 32 → EReal := fun d => v0 (ix2 p d)
/-- The candidate table by candidate and column. -/
abbrev cands : Fin 8192 → Fin 32 → EReal := fun k d => v1 (ix2 k d)
/-- The intercepts by candidate. -/
abbrev icpt : Fin 8192 → EReal := fun k => v3 (ix2 (0 : Fin 1) k)

/-- The exponential of a vector, at an index. -/
theorem exp_apply {s : Shape} {φ : FTy} (a : FVec Ideal s φ) (i : s.Idx) : exp a i = Ideal.exp (a i) := rfl

/-- The candidate table passes through a cast to its own shape unchanged. -/
theorem pay1_eq : k0_pay1 (F := Ideal) v1 = v1 := by
  unfold k0_pay1
  exact shapeCast_self v1 _

/-- The shifted score of candidate k for row p. -/
theorem score_at (p : Fin 256) (k : Fin 8192) :
    k0_pay2 (F := Ideal) v0 v1 v3 (ix2 p k) = kScore (rowOf v0 p) (cands v1) (icpt v3) k := by
  unfold k0_pay2
  rw [pay1_eq]
  dsimp only
  rw [subf_apply, mulf_apply, broadcast_apply, xy_at, broadcastTo_1b_ab_apply, shapeCast_a_1a_apply, addf_apply, sum_cols_y,
    shapeCast_1a_a_apply]
  simp only [mulf_apply]
  rfl

/-- The unnormalized weight of candidate k for row p. -/
theorem weight_at (p : Fin 256) (k : Fin 8192) :
    k0_pay3 (F := Ideal) v0 v1 v3 (ix2 p k) = kWeight (rowOf v0 p) (cands v1) (icpt v3) k := by
  unfold k0_pay3
  dsimp only
  rw [exp_apply, mulf_apply, broadcast_apply, subf_apply, broadcastTo_a1_ab_apply, shapeCast_a_a1_apply, max_cands]
  simp only [score_at]
  rfl

/-- The sum of the weights for row p. -/
theorem norm_at (p : Fin 256) :
    k0_pay4 (F := Ideal) v0 v1 v3 (ix2 p (0 : Fin 1)) = kNorm (rowOf v0 p) (cands v1) (icpt v3) := by
  unfold k0_pay4
  dsimp only
  rw [shapeCast_a_a1_apply, sum_cands]
  simp only [weight_at]
  rfl

/-- The stored value output for row p. -/
theorem value_at (p : Fin 256) :
    k0_pay5 (F := Ideal) v0 v1 v3 (ix1 p) = kValue (rowOf v0 p) (cands v1) (icpt v3) := by
  unfold k0_pay5
  dsimp only
  rw [subf_apply, divf_apply, sum_cands, shapeCast_a1_a_apply, norm_at, sum_cols_x]
  simp only [mulf_apply, weight_at, score_at]
  rfl

/-- The stored selection output for row p at column q. -/
theorem choice_at (p : Fin 256) (q : Fin 32) :
    k0_pay6 (F := Ideal) v0 v1 v3 (ix2 p q) = kChoice (rowOf v0 p) (cands v1) (icpt v3) q := by
  unfold k0_pay6
  rw [pay1_eq]
  rw [divf_apply, ey_at, broadcastTo_a1_ab_apply, norm_at]
  simp only [weight_at]
  rfl

end Cert.KernelIdeal.KernelRow

end
-- ==== Proof.SoftSelectArrays.lean ====
/-
  The two results as whole arrays: entry (n, q) of the selection output and entry n of the value output
  are the kernel's row functions of row n of X, of the candidate table (the one slab of Y) and of the
  intercept row.
-/
import proofs.«157892_g22308060135433_cont_8to1_1792_2_alg».proof.Proof.SoftSelect
import Idealize.ShloMosaic.Lib.ValueIdx

noncomputable section

namespace Cert.SoftSelect

open Idealize.ShloMosaic Idealize.ShloMosaic.ValueIdx

/-- Row `n` of X. -/
abbrev xRow (X : (⟨2, ![4096, 32]⟩ : Shape).Idx → EReal) (n : Fin 4096) : Fin 32 → EReal := fun d => X (ix2 n d)
/-- The candidate table: the one slab of Y, by candidate and column. -/
abbrev yTab (Y : (⟨3, ![1, 8192, 32]⟩ : Shape).Idx → EReal) : Fin 8192 → Fin 32 → EReal := fun k d => Y (ix3 (0 : Fin 1) k d)
/-- The intercepts by candidate. -/
abbrev bRow (B : (⟨2, ![1, 8192]⟩ : Shape).Idx → EReal) : Fin 8192 → EReal := fun k => B (ix2 (0 : Fin 1) k)

/-- The selection output as one array: at (n, q) the weighted mean of the candidates' column q for row n. -/
def choiceArr (X : (⟨2, ![4096, 32]⟩ : Shape).Idx → EReal) (Y : (⟨3, ![1, 8192, 32]⟩ : Shape).Idx → EReal)
    (B : (⟨2, ![1, 8192]⟩ : Shape).Idx → EReal) : (⟨2, ![4096, 32]⟩ : Shape).Idx → EReal :=
  fun i => kChoice (xRow X ⟨(i 0).val, (i 0).isLt⟩) (yTab Y) (bRow B) ⟨(i 1).val, (i 1).isLt⟩

/-- The value output as one array: at n the weighted mean of row n's shifted scores, minus its squared norm. -/
def valueArr (X : (⟨2, ![4096, 32]⟩ : Shape).Idx → EReal) (Y : (⟨3, ![1, 8192, 32]⟩ : Shape).Idx → EReal)
    (B : (⟨2, ![1, 8192]⟩ : Shape).Idx → EReal) : (⟨1, ![4096]⟩ : Shape).Idx → EReal :=
  fun i => kValue (xRow X ⟨(i 0).val, (i 0).isLt⟩) (yTab Y) (bRow B)

theorem choiceArr_ix2 (X : (⟨2, ![4096, 32]⟩ : Shape).Idx → EReal) (Y : (⟨3, ![1, 8192, 32]⟩ : Shape).Idx → EReal)
    (B : (⟨2, ![1, 8192]⟩ : Shape).Idx → EReal) (n : Fin 4096) (q : Fin 32) :
    choiceArr X Y B (ix2 n q) = kChoice (xRow X n) (yTab Y) (bRow B) q := rfl

theorem valueArr_ix1 (X : (⟨2, ![4096, 32]⟩ : Shape).Idx → EReal) (Y : (⟨3, ![1, 8192, 32]⟩ : Shape).Idx → EReal)
    (B : (⟨2, ![1, 8192]⟩ : Shape).Idx → EReal) (n : Fin 4096) :
    valueArr X Y B (ix1 n) = kValue (xRow X n) (yTab Y) (bRow B) := rfl

end Cert.SoftSelect

end
-- ==== Proof.KernelArray.lean ====
/-
  From blocks to arrays: the kernel's two result arrays after its run.

  Grid point t reads rows 256 t .. 256 t + 255 of X (window 0), the whole candidate table (window 1: the
  array the reshape of Y wrote) and the whole intercept row (window 2), and writes back rows
  256 t .. 256 t + 255 of the selection output (window 3) and entries 256 t .. 256 t + 255 of the value
  output (window 4). What it writes at row p of its block is the row function of row 256 t + p of X; the
  sixteen blocks tile each output, so each output array ends as the whole-array function of the arguments.
-/
import proofs.«157892_g22308060135433_cont_8to1_1792_2_alg».proof.Proof.Gen.KernelIdeal.Value
import proofs.«157892_g22308060135433_cont_8to1_1792_2_alg».proof.Proof.KernelPayload
import proofs.«157892_g22308060135433_cont_8to1_1792_2_alg».proof.Proof.SoftSelectArrays
import Idealize.ShloMosaic.Lib.StableHlo.Run

noncomputable section

namespace Cert.KernelIdeal.KernelArray

open Cert.KernelIdeal Cert.KernelIdeal.Gen Idealize.ShloMosaic Idealize.ShloMosaic.TcCoe Idealize.SL.Sem
open Idealize.ShloMosaic.ValueIdx Cert.SoftSelect Cert.KernelIdeal.KernelRow
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The block index maps over the sixteen grid points: the X window and the two output windows move with the
    point along rows; the candidate table and the intercept row stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

/-- The row of X that row `p` of point `t`'s block is. -/
def rowAt (t : Fin cfg0.N) (p : Fin 256) : Fin 4096 :=
  ⟨t.val * 256 + p.val, by have ht : t.val < 16 := t.isLt; have hp := p.isLt; omega⟩

/-! ## The input blocks read through their arrays -/

theorem x_blk (c : Dev nD) (t : Fin cfg0.N) (p : Fin 256) (d : Fin 32) :
    iblk m c 0 t (ix2 p d) = V m c main_arg0 (ix2 (rowAt t p) d) := by
  obtain ⟨e0, e1, -⟩ := idx_facts t
  show V m c main_arg0 (((cfg0.win 0).blk t).view.emb (ix2 p d)) = _
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 32 + 1 * d.val = d.val; omega

theorem y_blk (c : Dev nD) (t : Fin cfg0.N) (k : Fin 8192) (d : Fin 32) :
    iblk m c 1 t (ix2 k d) = V m c main_v0 (ix2 k d) := by
  obtain ⟨-, -, e2, e3, -⟩ := idx_facts t
  show V m c main_v0 (((cfg0.win 1).blk t).view.emb (ix2 k d)) = _
  refine congrArg _ (funext fun a => Fin.ext ?_)
  match a with
  | ⟨0, _⟩ => show win0_1.index t (0 : Fin 2) * 8192 + 1 * k.val = k.val; omega
  | ⟨1, _⟩ => show win0_1.index t (1 : Fin 2) * 32 + 1 * d.val = d.val; omega

theorem b_blk (c : Dev nD) (t : Fin cfg0.N) (k : Fin 8192) :
    iblk m c 2 t (ix2 (0 : Fin 1) k) = V m c main_arg2 (ix2 (0 : Fin 1) k) := by
  obtain ⟨-, -, -, -, e4, e5, -⟩ := idx_facts t
  show V m c main_arg2 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 8192 + 1 * k.val = k.val; omega

/-- The array window 1 stages is the reshape of Y: at (k, d) it holds Y at (0, k, d). -/
theorem table_eq (c : Dev nD) (k : Fin 8192) (d : Fin 32) :
    V m c main_v0 (ix2 k d) = m ((c : Thread nD τ).loc main_arg1) (ix3 (0 : Fin 1) k d) := by
  have e : (V m c main_v0 : S8192x32.Idx → EReal)
      = shapeCast S8192x32 (m ((c : Thread nD τ).loc main_arg1)) shapeCasts_S1x8192x32_S8192x32 := by
    dsimp only [Gen.V, Gen.hostOps0]; after_results; rfl
  rw [e]
  exact shapeCast_1ab_ab_apply _ _ k d

/-! ## One row of a block, as a row of the arguments -/

theorem row_eq (c : Dev nD) (t : Fin cfg0.N) (p : Fin 256) :
    rowOf (iblk m c 0 t) p = xRow (m ((c : Thread nD τ).loc main_arg0)) (rowAt t p) :=
  funext fun d => (x_blk m c t p d).trans (congrFun (V_main_arg0 m c) _)

theorem cands_eq (c : Dev nD) (t : Fin cfg0.N) :
    cands (iblk m c 1 t) = yTab (m ((c : Thread nD τ).loc main_arg1)) :=
  funext fun k => funext fun d => (y_blk m c t k d).trans (table_eq m c k d)

theorem icpt_eq (c : Dev nD) (t : Fin cfg0.N) :
    icpt (iblk m c 2 t) = bRow (m ((c : Thread nD τ).loc main_arg2)) :=
  funext fun k => (b_blk m c t k).trans (congrFun (V_main_arg2 m c) _)

/-! ## What each point writes back -/

/-- Point `t` writes back block `t` of the selection array. -/
theorem flushed3_eq (c : Dev nD) (t : Fin cfg0.N) :
    (dats m 0 c).flushed 3 t = ((cfg0.win 3).blk t).view.read (Elt Ideal)
      (choiceArr (m ((c : Thread nD τ).loc main_arg0)) (m ((c : Thread nD τ).loc main_arg1)) (m ((c : Thread nD τ).loc main_arg2))) := by
  rw [Value.flushed3]
  unfold out0_3
  rw [View.canon_unit_zero zero2]
  simp only [View.ld_unit_zero (S := S256x32) zero2, View.ld_unit_zero (S := S8192x32) zero2, View.ld_unit_zero (S := S1x8192) zero2]
  funext j
  obtain ⟨p, q, rfl⟩ : ∃ (p : Fin 256) (q : Fin 32), j = ix2 p q := ⟨j 0, j 1, eq_ix2 j⟩
  obtain ⟨-, -, -, -, -, -, e6, e7, -⟩ := idx_facts t
  have he : ((cfg0.win 3).blk t).view.emb (ix2 p q) = ix2 (rowAt t p) q := funext fun a => Fin.ext (by
    match a with
    | ⟨0, _⟩ => show win0_3.index t (0 : Fin 2) * 256 + 1 * p.val = t.val * 256 + p.val; omega
    | ⟨1, _⟩ => show win0_3.index t (1 : Fin 2) * 32 + 1 * q.val = q.val; omega)
  show k0_pay6 (F := Ideal) (iblk m c 0 t) (iblk m c 1 t) (iblk m c 2 t) (ix2 p q)
    = choiceArr _ _ _ (((cfg0.win 3).blk t).view.emb (ix2 p q))
  rw [he, choiceArr_ix2]
  refine (choice_at (iblk m c 0 t) (iblk m c 1 t) (iblk m c 2 t) p q).trans ?_
  rw [row_eq m c t p, cands_eq m c t, icpt_eq m c t]

/-- Point `t` writes back block `t` of the value array. -/
theorem flushed4_eq (c : Dev nD) (t : Fin cfg0.N) :
    (dats m 0 c).flushed 4 t = ((cfg0.win 4).blk t).view.read (Elt Ideal)
      (valueArr (m ((c : Thread nD τ).loc main_arg0)) (m ((c : Thread nD τ).loc main_arg1)) (m ((c : Thread nD τ).loc main_arg2))) := by
  rw [Value.flushed4]
  unfold out0_4
  rw [View.canon_unit_zero zero1]
  simp only [View.ld_unit_zero (S := S256x32) zero2, View.ld_unit_zero (S := S8192x32) zero2, View.ld_unit_zero (S := S1x8192) zero2]
  funext j
  obtain ⟨p, rfl⟩ : ∃ (p : Fin 256), j = ix1 p := ⟨j 0, eq_ix1 j⟩
  obtain ⟨-, -, -, -, -, -, -, -, e8⟩ := idx_facts t
  have he : ((cfg0.win 4).blk t).view.emb (ix1 p) = ix1 (rowAt t p) := funext fun a => Fin.ext (by
    match a with
    | ⟨0, _⟩ => show win0_4.index t (0 : Fin 1) * 256 + 1 * p.val = t.val * 256 + p.val; omega)
  show k0_pay5 (F := Ideal) (iblk m c 0 t) (iblk m c 1 t) (iblk m c 2 t) (ix1 p)
    = valueArr _ _ _ (((cfg0.win 4).blk t).view.emb (ix1 p))
  rw [he, valueArr_ix1]
  refine (value_at (iblk m c 0 t) (iblk m c 1 t) (iblk m c 2 t) p).trans ?_
  rw [row_eq m c t p, cands_eq m c t, icpt_eq m c t]

/-! ## The sixteen blocks tile each output -/

theorem mem_blk3 (t : Fin cfg0.N) (i : S4096x32.Idx) :
    i ∈ ((cfg0.win 3).blk t).view.set ↔ ∀ a : Fin 2, win0_3.index t a * S256x32.size a ≤ (i a).val ∧ (i a).val < win0_3.index t a * S256x32.size a + S256x32.size a := by
  show i ∈ ((View.whole main_v1_0).slice (win0_3.rect t)).set ↔ _
  rw [View.set_slice_whole, Rect.mem_set_unit]
  exact Iff.rfl

theorem mem_blk4 (t : Fin cfg0.N) (i : S4096.Idx) :
    i ∈ ((cfg0.win 4).blk t).view.set ↔ ∀ a : Fin 1, win0_4.index t a * S256.size a ≤ (i a).val ∧ (i a).val < win0_4.index t a * S256.size a + S256.size a := by
  show i ∈ ((View.whole main_v1_1).slice (win0_4.rect t)).set ↔ _
  rw [View.set_slice_whole, Rect.mem_set_unit]
  exact Iff.rfl

/-- Row r of the selection array lies in the block of point r / 256. -/
theorem cover3 (i : S4096x32.Idx) : ∃ t : Fin cfg0.N, (cfg0.win 3).flush t = true ∧ i ∈ ((cfg0.win 3).blk t).view.set := by
  have hi0 : (i 0).val < 4096 := (i 0).isLt
  have hi1 : (i 1).val < 32 := (i 1).isLt
  obtain ⟨t, ht⟩ : ∃ t : Fin cfg0.N, t.val = (i 0).val / 256 := ⟨⟨(i 0).val / 256, by show (i 0).val / 256 < 16; omega⟩, rfl⟩
  obtain ⟨-, -, -, -, -, -, e6, e7, -⟩ := idx_facts t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 32 ≤ (i 1).val ∧ (i 1).val < win0_3.index t (1 : Fin 2) * 32 + 32; omega

/-- Entry r of the value array lies in the block of point r / 256. -/
theorem cover4 (i : S4096.Idx) : ∃ t : Fin cfg0.N, (cfg0.win 4).flush t = true ∧ i ∈ ((cfg0.win 4).blk t).view.set := by
  have hi0 : (i 0).val < 4096 := (i 0).isLt
  obtain ⟨t, ht⟩ : ∃ t : Fin cfg0.N, t.val = (i 0).val / 256 := ⟨⟨(i 0).val / 256, by show (i 0).val / 256 < 16; omega⟩, rfl⟩
  obtain ⟨-, -, -, -, -, -, -, -, e8⟩ := idx_facts t
  refine ⟨t, flush0_4 t, ?_⟩
  rw [mem_blk4]
  intro a
  match a with
  | ⟨0, _⟩ => show win0_4.index t (0 : Fin 1) * 256 ≤ (i 0).val ∧ (i 0).val < win0_4.index t (0 : Fin 1) * 256 + 256; omega

/-! ## The arrays after the run -/

theorem final3 (c : Dev nD) : (dats m 0 c).arrAt 3 cfg0.N
    = choiceArr (m ((c : Thread nD τ).loc main_arg0)) (m ((c : Thread nD τ).loc main_arg1)) (m ((c : Thread nD τ).loc main_arg2)) :=
  (dats m 0 c).arrAt_eq_of_cover 3 _ (fun t _ => flushed3_eq m c t) cover3

theorem final4 (c : Dev nD) : (dats m 0 c).arrAt 4 cfg0.N
    = valueArr (m ((c : Thread nD τ).loc main_arg0)) (m ((c : Thread nD τ).loc main_arg1)) (m ((c : Thread nD τ).loc main_arg2)) :=
  (dats m 0 c).arrAt_eq_of_cover 4 _ (fun t _ => flushed4_eq m c t) cover4

/-- The kernel's run: it terminates with the selection array and the value array at the two whole-array
    functions of the arguments, the arguments unchanged. -/
theorem run : θ_run defs (onTc (τ := τ) (main (F := Ideal))) ⟨m, fun _ => 0, ρ⟩ fun r => ∀ c : Dev nD,
      r.2.mem ((c : Thread nD τ).loc main_v1_0)
        = choiceArr (m ((c : Thread nD τ).loc main_arg0)) (m ((c : Thread nD τ).loc main_arg1)) (m ((c : Thread nD τ).loc main_arg2))
      ∧ r.2.mem ((c : Thread nD τ).loc main_v1_1)
        = valueArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.KernelArray

end
-- ==== Proof.SoftSelectReal.lean ====
/-
  The real-number side of the row law: coercion of finite sums and finite maxima into the extended reals,
  the two identities about weighted means, and the real quantities behind one row,
      s k = 2 <x, y k> - (|y k|^2 + b k),   c = |x|^2,   M = max_k s k,   e k = exp (50 (s k - M)),   Z = sum_k e k.
  Z is a sum of exponentials over a nonempty index set, so Z > 0; and since t |-> 50 (t - c) is monotone,
  max_k 50 (s k - c) = 50 (M - c).
-/
import Mathlib.Data.EReal.Operations
import Mathlib.Data.Finset.Lattice.Fold
import Mathlib.Analysis.SpecialFunctions.Exp
import Mathlib.Algebra.BigOperators.Field
import Mathlib.Tactic.Ring
import Mathlib.Tactic.NormNum

noncomputable section

namespace Cert.SoftSelect

/-! ## Coercion of finite sums and of finite maxima -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of max from the bottom over a nonempty set of reals is the coercion of their maximum. -/
theorem fold_max_coe {ι : Type*} (s : Finset ι) (hs : s.Nonempty) (f : ι → ℝ) :
    s.fold max (⊥ : EReal) (fun k => ((f k : ℝ) : EReal)) = ((s.sup' hs f : ℝ) : EReal) := by
  have h1 : ((s.sup' hs f : ℝ) : EReal) = s.sup' hs (Real.toEReal ∘ f) :=
    Finset.apply_sup'_eq_sup'_comp hs Real.toEReal (fun a b => EReal.coe_strictMono.monotone.map_sup a b)
  rw [h1, Finset.sup'_eq_sup]
  rfl

/-! ## The two identities on the reals -/

/-- A weighted mean of shifted values is the weighted mean of the values, shifted. -/
theorem mean_sub {ι : Type*} (t : Finset ι) (e s : ι → ℝ) (c : ℝ) (hZ : ∑ k ∈ t, e k ≠ 0) :
    (∑ k ∈ t, e k * s k) / (∑ k ∈ t, e k) - c = ∑ k ∈ t, e k / (∑ k ∈ t, e k) * (s k - c) := by
  have h : ∀ k ∈ t, e k / (∑ k ∈ t, e k) * (s k - c)
      = (e k * s k) / (∑ k ∈ t, e k) - c * (e k / (∑ k ∈ t, e k)) := by
    intro k _; ring
  rw [Finset.sum_congr rfl h, Finset.sum_sub_distrib, ← Finset.sum_div, ← Finset.mul_sum, ← Finset.sum_div,
    div_self hZ, mul_one]

/-- Dividing a weighted sum by the normalizer divides each weight. -/
theorem mean_mul {ι : Type*} (t : Finset ι) (e v : ι → ℝ) (z : ℝ) :
    (∑ k ∈ t, e k * v k) / z = ∑ k ∈ t, e k / z * v k := by
  rw [Finset.sum_div]
  exact Finset.sum_congr rfl (fun k _ => by ring)

/-! ## The real quantities behind a row -/

variable (xr : Fin 32 → ℝ) (yr : Fin 8192 → Fin 32 → ℝ) (br : Fin 8192 → ℝ)

/-- The shifted score of candidate k. -/
def sR (k : Fin 8192) : ℝ := 2 * (∑ d : Fin 32, xr d * yr k d) - ((∑ d : Fin 32, yr k d * yr k d) + br k)

/-- The squared norm of the row. -/
def cR : ℝ := ∑ d : Fin 32, xr d * xr d

/-- The maximum of the shifted scores. -/
def mR : ℝ := (Finset.univ : Finset (Fin 8192)).sup' Finset.univ_nonempty (sR xr yr br)

/-- The unnormalized weight of candidate k. -/
def eR (k : Fin 8192) : ℝ := Real.exp (50 * (sR xr yr br k - mR xr yr br))

/-- The normalizer. -/
def zR : ℝ := ∑ k : Fin 8192, eR xr yr br k

/-- The normalizer is a sum of exponentials over a nonempty index set, hence positive. -/
theorem zR_pos : 0 < zR xr yr br :=
  Finset.sum_pos (fun k _ => Real.exp_pos _) Finset.univ_nonempty

/-- Scaling by 50 and shifting by a constant is monotone, so it commutes with the maximum. -/
theorem sup'_scale_shift (c : ℝ) :
    (Finset.univ : Finset (Fin 8192)).sup' Finset.univ_nonempty (fun k => 50 * (sR xr yr br k - c))
      = 50 * (mR xr yr br - c) := by
  have mono : Monotone (fun t : ℝ => 50 * (t - c)) := fun a b hab =>
    mul_le_mul_of_nonneg_left (sub_le_sub_right hab c) (by norm_num)
  exact (Finset.apply_sup'_eq_sup'_comp Finset.univ_nonempty (fun t : ℝ => 50 * (t - c))
    (fun a b => mono.map_sup a b)).symm

end Cert.SoftSelect

end
-- ==== Proof.SoftSelectLaw.lean ====
/-
  The kernel's row and the reference's row agree on real inputs.

  On real inputs every intermediate quantity of both programs is a real number, so each definition of
  SoftSelect.lean is the coercion of a real expression:
      s k = 2 <x, y k> - (|y k|^2 + b k),   M = max_k s k,   e k = exp (50 (s k - M)),   Z = sum_k e k > 0,
  and with c = |x|^2 the reference's score is s k - c, its shift is 50 (M - c) (multiplying by 50 > 0 and
  subtracting c are monotone, so they commute with the maximum), hence its softmax numerator is
      exp (50 (s k - c) - 50 (M - c)) = e k
  and its denominator is Z again. The two outputs then differ by the real identities
      sum_k (e k / Z) (s k - c) = (sum_k e k s k) / Z - c      (because sum_k e k = Z is not zero),
      sum_k (e k / Z) y k q     = (sum_k e k y k q) / Z.
-/
import proofs.«157892_g22308060135433_cont_8to1_1792_2_alg».proof.Proof.SoftSelect
import proofs.«157892_g22308060135433_cont_8to1_1792_2_alg».proof.Proof.SoftSelectReal
import Mathlib.Data.EReal.Operations
import Mathlib.Tactic.Ring
import Mathlib.Tactic.NormNum

noncomputable section

namespace Cert.SoftSelect

open Idealize.ShloMosaic

/-! ## The three literals, and the quotient of two reals -/

theorem two_eq : two = ((2 : ℝ) : EReal) := by
  simp [two, Ideal.ofBits, Ideal.ieee, -EReal.coe_mul]; norm_num

theorem fifty_eq : fifty = ((50 : ℝ) : EReal) := by
  simp [fifty, Ideal.ofBits, Ideal.ieee, -EReal.coe_mul]; norm_num

theorem negInf_eq : negInf = ⊥ := by
  simp [negInf, Ideal.ofBits, Ideal.ieee]

/-- The quotient of two reals by the ideal division, for a divisor that is not zero. -/
theorem div_coe_coe (a z : ℝ) (hz : z ≠ 0) : Ideal.div (a : EReal) (z : EReal) = ((a / z : ℝ) : EReal) := by
  rw [Ideal.div_coe hz, ← EReal.coe_mul, mul_one_div]

section Row

variable (xr : Fin 32 → ℝ) (yr : Fin 8192 → Fin 32 → ℝ) (br : Fin 8192 → ℝ)

local notation "xE" => (fun d : Fin 32 => ((xr d : ℝ) : EReal))
local notation "yE" => (fun (k : Fin 8192) (d : Fin 32) => ((yr k d : ℝ) : EReal))
local notation "bE" => (fun k : Fin 8192 => ((br k : ℝ) : EReal))

/-! ## The kernel's quantities are the coercions of the real ones -/

theorem kScore_coe (k : Fin 8192) : kScore xE yE bE k = ((sR xr yr br k : ℝ) : EReal) := by
  unfold kScore sR
  rw [two_eq]
  simp only [EReal.coe_sub, EReal.coe_add, EReal.coe_mul, coe_sum]

theorem kMax_coe : kMax xE yE bE = ((mR xr yr br : ℝ) : EReal) := by
  unfold kMax mR
  rw [negInf_eq]
  simp only [kScore_coe]
  exact fold_max_coe Finset.univ Finset.univ_nonempty _

theorem kWeight_coe (k : Fin 8192) : kWeight xE yE bE k = ((eR xr yr br k : ℝ) : EReal) := by
  unfold kWeight eR
  rw [kScore_coe, kMax_coe, fifty_eq, ← EReal.coe_sub, ← EReal.coe_mul, Ideal.exp_coe]

theorem kNorm_coe : kNorm xE yE bE = ((zR xr yr br : ℝ) : EReal) := by
  unfold kNorm zR
  rw [coe_sum]
  exact Finset.sum_congr rfl (fun k _ => kWeight_coe xr yr br k)

theorem kValue_coe : kValue xE yE bE
    = (((∑ k : Fin 8192, eR xr yr br k * sR xr yr br k) / zR xr yr br - cR xr : ℝ) : EReal) := by
  have h : (∑ k : Fin 8192, kWeight xE yE bE k * kScore xE yE bE k)
      = ((∑ k : Fin 8192, eR xr yr br k * sR xr yr br k : ℝ) : EReal) := by
    rw [coe_sum]
    exact Finset.sum_congr rfl (fun k _ => by rw [kWeight_coe, kScore_coe, EReal.coe_mul])
  unfold kValue
  rw [h, kNorm_coe, div_coe_coe _ _ (zR_pos xr yr br).ne', EReal.coe_sub]
  unfold cR
  simp only [EReal.coe_mul, coe_sum]

theorem kChoice_coe (q : Fin 32) : kChoice xE yE bE q
    = (((∑ k : Fin 8192, eR xr yr br k * yr k q) / zR xr yr br : ℝ) : EReal) := by
  have h : (∑ k : Fin 8192, kWeight xE yE bE k * yE k q)
      = ((∑ k : Fin 8192, eR xr yr br k * yr k q : ℝ) : EReal) := by
    rw [coe_sum]
    exact Finset.sum_congr rfl (fun k _ => by rw [kWeight_coe, EReal.coe_mul])
  unfold kChoice
  rw [h, kNorm_coe, div_coe_coe _ _ (zR_pos xr yr br).ne']

/-! ## The reference's quantities likewise -/

theorem rScore_coe (k : Fin 8192) : rScore xE yE bE k = ((sR xr yr br k - cR xr : ℝ) : EReal) := by
  have e : sR xr yr br k - cR xr
      = -(((∑ d : Fin 32, xr d * xr d) - 2 * (∑ d : Fin 32, xr d * yr k d)) + (∑ d : Fin 32, yr k d * yr k d))
          - br k := by
    unfold sR cR; ring
  rw [e]
  unfold rScore
  rw [two_eq]
  simp only [EReal.coe_sub, EReal.coe_add, EReal.coe_mul, EReal.coe_neg, coe_sum]

theorem rMax_coe : rMax xE yE bE = ((50 * (mR xr yr br - cR xr) : ℝ) : EReal) := by
  have h : ∀ k : Fin 8192, fifty * rScore xE yE bE k = ((50 * (sR xr yr br k - cR xr) : ℝ) : EReal) := by
    intro k; rw [rScore_coe, fifty_eq, ← EReal.coe_mul]
  unfold rMax
  rw [negInf_eq, max_eq_right bot_le]
  simp only [h]
  rw [fold_max_coe Finset.univ Finset.univ_nonempty, sup'_scale_shift]

theorem rWeight_coe (k : Fin 8192) : rWeight xE yE bE k = ((eR xr yr br k : ℝ) : EReal) := by
  have e : 50 * (sR xr yr br k - cR xr) - 50 * (mR xr yr br - cR xr) = 50 * (sR xr yr br k - mR xr yr br) := by
    ring
  unfold rWeight eR
  rw [rScore_coe, rMax_coe, fifty_eq, ← EReal.coe_mul, ← EReal.coe_sub, Ideal.exp_coe, e]

theorem rNorm_coe : rNorm xE yE bE = ((zR xr yr br : ℝ) : EReal) := by
  unfold rNorm zR
  rw [coe_sum]
  exact Finset.sum_congr rfl (fun k _ => rWeight_coe xr yr br k)

theorem rProb_coe (k : Fin 8192) : rProb xE yE bE k = ((eR xr yr br k / zR xr yr br : ℝ) : EReal) := by
  unfold rProb
  rw [rWeight_coe, rNorm_coe, div_coe_coe _ _ (zR_pos xr yr br).ne']

theorem rValue_coe : rValue xE yE bE
    = ((∑ k : Fin 8192, eR xr yr br k / zR xr yr br * (sR xr yr br k - cR xr) : ℝ) : EReal) := by
  unfold rValue
  rw [coe_sum]
  exact Finset.sum_congr rfl (fun k _ => by rw [rProb_coe, rScore_coe, EReal.coe_mul])

theorem rChoice_coe (q : Fin 32) : rChoice xE yE bE q
    = ((∑ k : Fin 8192, eR xr yr br k / zR xr yr br * yr k q : ℝ) : EReal) := by
  unfold rChoice
  rw [coe_sum]
  exact Finset.sum_congr rfl (fun k _ => by rw [rProb_coe, EReal.coe_mul])

end Row

/-! ## The two laws -/

theorem value_eq (xr : Fin 32 → ℝ) (yr : Fin 8192 → Fin 32 → ℝ) (br : Fin 8192 → ℝ) :
    kValue (fun d => ((xr d : ℝ) : EReal)) (fun k d => ((yr k d : ℝ) : EReal)) (fun k => ((br k : ℝ) : EReal))
      = rValue (fun d => ((xr d : ℝ) : EReal)) (fun k d => ((yr k d : ℝ) : EReal)) (fun k => ((br k : ℝ) : EReal)) := by
  rw [kValue_coe, rValue_coe]
  exact congrArg Real.toEReal (mean_sub Finset.univ (eR xr yr br) (sR xr yr br) (cR xr) (zR_pos xr yr br).ne')

theorem choice_eq (xr : Fin 32 → ℝ) (yr : Fin 8192 → Fin 32 → ℝ) (br : Fin 8192 → ℝ) (q : Fin 32) :
    kChoice (fun d => ((xr d : ℝ) : EReal)) (fun k d => ((yr k d : ℝ) : EReal)) (fun k => ((br k : ℝ) : EReal)) q
      = rChoice (fun d => ((xr d : ℝ) : EReal)) (fun k d => ((yr k d : ℝ) : EReal)) (fun k => ((br k : ℝ) : EReal)) q := by
  rw [kChoice_coe, rChoice_coe]
  exact congrArg Real.toEReal (mean_mul Finset.univ (eR xr yr br) (fun k => yr k q) (zR xr yr br))

end Cert.SoftSelect

end
-- ==== Proof.RefRow.lean ====
/-
  The reference program read as a function of one row.

  For a row n of X write x d = X (n, d), and write y k d = Y (0, k, d), b k = B (0, k). Each stage of the reference,
  read at row n, is the row function of the same name at (x, y, b): the score of candidate k, the score times the
  temperature, its maximum along k taken once more against -inf, the softmax's numerator, denominator and weight, and
  the two results: the weighted sum of the scores and the weighted sum of the candidates' column q.
-/
import proofs.«157892_g22308060135433_cont_8to1_1792_2_alg».proof.Proof.Gen.ReferenceIdeal.Read
import proofs.«157892_g22308060135433_cont_8to1_1792_2_alg».proof.Proof.SoftSelect
import Idealize.ShloMosaic.Lib.ValueIdx
import Idealize.ShloMosaic.PureOps.Reduce
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.ValueIdx
  Cert.SoftSelect

variable (X : (⟨S4096x32, .f32⟩ : BufTy).Contents (Elt Ideal)) (Y : (⟨S1x8192x32, .f32⟩ : BufTy).Contents (Elt Ideal))
  (B : (⟨S1x8192, .f32⟩ : BufTy).Contents (Elt Ideal))

/-! ## Index equations: where each layout stage reads its operand -/

/-- Entry (k, d) of the reshaped table is entry (0, k, d) of the table. -/
theorem idx_v0 (k : Fin 8192) (d : Fin 32) : idx_main_v0 (ix2 k d) = ix3 (0 : Fin 1) k d :=
  funext fun a => Fin.ext (by
    match a with
    | ⟨0, _⟩ => rfl
    | ⟨1, _⟩ => show (k.val * 32 + d.val) / 32 % 8192 = k.val; have := k.isLt; have := d.isLt; omega
    | ⟨2, _⟩ => show (k.val * 32 + d.val) % 32 = d.val; have := d.isLt; omega)

theorem idx_v2 (n : Fin 4096) (d : Fin 32) : idx_main_v2 (ix1 n) d = ix2 n d :=
  funext fun a => Fin.ext (by match a with | ⟨0, _⟩ => rfl | ⟨1, _⟩ => rfl)

theorem idx_v5 (k : Fin 8192) (d : Fin 32) : idx_main_v5 (ix1 k) d = ix2 k d :=
  funext fun a => Fin.ext (by match a with | ⟨0, _⟩ => rfl | ⟨1, _⟩ => rfl)

theorem lidx_v8 (n : Fin 4096) (k : Fin 8192) (d : Fin 32) : lidx_main_v8 (ix2 n k) d = ix2 n d :=
  funext fun a => Fin.ext (by match a with | ⟨0, _⟩ => rfl | ⟨1, _⟩ => rfl)

/-- The transposed table at (d, k) is the reshaped table at (k, d). -/
theorem ridx_v8 (n : Fin 4096) (k : Fin 8192) (d : Fin 32) : idx_main_v7 (ridx_main_v8 (ix2 n k) d) = ix2 k d :=
  funext fun a => Fin.ext (by match a with | ⟨0, _⟩ => rfl | ⟨1, _⟩ => rfl)

/-- A row's value broadcast along k: [4096] to [4096, 1] to [4096, 8192]. -/
theorem idx_v11 (n : Fin 4096) (k : Fin 8192) : idx_main_v3 (idx_main_v11 (ix2 n k)) = ix1 n :=
  funext fun a => Fin.ext (by match a with | ⟨0, _⟩ => rfl)

/-- A candidate's value broadcast along n: [8192] to [1, 8192] to [4096, 8192]. -/
theorem idx_v13 (n : Fin 4096) (k : Fin 8192) : idx_main_v6 (idx_main_v13 (ix2 n k)) = ix1 k :=
  funext fun a => Fin.ext (by match a with | ⟨0, _⟩ => rfl)

theorem idx_v16 (n : Fin 4096) (k : Fin 8192) : idx_main_v16 (ix2 n k) = ix2 (0 : Fin 1) k :=
  funext fun a => Fin.ext (by match a with | ⟨0, _⟩ => rfl | ⟨1, _⟩ => rfl)

theorem idx_v24 (n : Fin 4096) (k : Fin 8192) : idx_main_v23 (idx_main_v24 (ix2 n k)) = ix1 n :=
  funext fun a => Fin.ext (by match a with | ⟨0, _⟩ => rfl)

theorem idx_v27 (n : Fin 4096) (k : Fin 8192) : idx_main_v27 (ix1 n) k = ix2 n k :=
  funext fun a => Fin.ext (by match a with | ⟨0, _⟩ => rfl | ⟨1, _⟩ => rfl)

theorem idx_v29 (n : Fin 4096) (k : Fin 8192) : idx_main_v28 (idx_main_v29 (ix2 n k)) = ix1 n :=
  funext fun a => Fin.ext (by match a with | ⟨0, _⟩ => rfl)

theorem idx_v32 (n : Fin 4096) (k : Fin 8192) : idx_main_v32 (ix1 n) k = ix2 n k :=
  funext fun a => Fin.ext (by match a with | ⟨0, _⟩ => rfl | ⟨1, _⟩ => rfl)

theorem lidx_v33 (n : Fin 4096) (q : Fin 32) (k : Fin 8192) : lidx_main_v33 (ix2 n q) k = ix2 n k :=
  funext fun a => Fin.ext (by match a with | ⟨0, _⟩ => rfl | ⟨1, _⟩ => rfl)

theorem ridx_v33 (n : Fin 4096) (q : Fin 32) (k : Fin 8192) : ridx_main_v33 (ix2 n q) k = ix2 k q :=
  funext fun a => Fin.ext (by match a with | ⟨0, _⟩ => rfl | ⟨1, _⟩ => rfl)

/-! ## The score -/

/-- The reshaped table at (k, d). -/
theorem table_at (k : Fin 8192) (d : Fin 32) : val_main_v0 (F := Ideal) Y (ix2 k d) = Y (ix3 (0 : Fin 1) k d) := by
  rw [val_main_v0_apply, idx_v0]

/-- |x|^2: the sum starts from 0. -/
theorem xsq_at (n : Fin 4096) : val_main_v2 (F := Ideal) X (ix1 n) = ∑ d : Fin 32, X (ix2 n d) * X (ix2 n d) := by
  rw [val_main_v2_apply, val_main_cst_apply, Ideal.ofBits_def, Ideal.ofBits_zero_f32, zero_add]
  refine Finset.sum_congr rfl fun d _ => ?_
  rw [val_main_v1_apply, idx_v2, Ideal.mulf_def]

/-- |y k|^2. -/
theorem ysq_at (k : Fin 8192) :
    val_main_v5 (F := Ideal) Y (ix1 k) = ∑ d : Fin 32, Y (ix3 (0 : Fin 1) k d) * Y (ix3 (0 : Fin 1) k d) := by
  rw [val_main_v5_apply, val_main_cst_0_apply, Ideal.ofBits_def, Ideal.ofBits_zero_f32, zero_add]
  refine Finset.sum_congr rfl fun d _ => ?_
  rw [val_main_v4_apply, idx_v5, table_at, Ideal.mulf_def]

/-- The inner product of x and y k. -/
theorem xy_at (n : Fin 4096) (k : Fin 8192) :
    val_main_v8 (F := Ideal) X Y (ix2 n k) = ∑ d : Fin 32, X (ix2 n d) * Y (ix3 (0 : Fin 1) k d) := by
  rw [val_main_v8_apply]
  refine Finset.sum_congr rfl fun d _ => ?_
  rw [val_main_v7_apply, ridx_v8, table_at, lidx_v8]

/-- The reference's score of candidate k for row n. -/
theorem score_at (n : Fin 4096) (k : Fin 8192) :
    val_main_v17 (F := Ideal) X Y B (ix2 n k)
      = rScore (fun d => X (ix2 n d)) (fun k d => Y (ix3 (0 : Fin 1) k d)) (fun k => B (ix2 (0 : Fin 1) k)) k := by
  rw [val_main_v17_apply, val_main_v15_apply, val_main_v14_apply, val_main_v12_apply, val_main_v11_apply,
    val_main_v3_apply, idx_v11, xsq_at, val_main_v10_apply, val_main_v9_apply, val_main_cst_1_apply, xy_at,
    val_main_v13_apply, val_main_v6_apply, idx_v13, ysq_at, val_main_v16_apply, idx_v16]
  simp only [Ideal.subf_def, Ideal.hostNegf_def, Ideal.negf_def, Ideal.addf_def, Ideal.mulf_def, Ideal.ofBits_def]
  rfl

/-! ## The softmax -/

/-- The score times the temperature. -/
theorem scaled_at (n : Fin 4096) (k : Fin 8192) :
    val_main_v19 (F := Ideal) X Y B (ix2 n k)
      = fifty * rScore (fun d => X (ix2 n d)) (fun k d => Y (ix3 (0 : Fin 1) k d)) (fun k => B (ix2 (0 : Fin 1) k)) k := by
  rw [val_main_v19_apply, val_main_v18_apply, val_main_cst_2_apply, score_at, Ideal.mulf_def, Ideal.ofBits_def]

/-- Row n with coordinate k put back on the reduced axis is (n, k). -/
theorem lift_row (h : S4096x8192.Reduces [1] S4096) (n : Fin 4096) (k : Fin (S4096x8192.size 1)) :
    h.lift (ix1 n) k = ix2 n (⟨k.val, k.isLt⟩ : Fin 8192) := by
  funext c; apply Fin.ext
  fin_cases c <;> rfl

/-- The maximum-reduce along k, from -inf: a fold of max over the candidates. The body is commutative and associative,
    so the reduce is the fold over the reduced axis's coordinates in any order. -/
theorem fold_at (n : Fin 4096) :
    val_main_v20 (F := Ideal) X Y B (ix1 n)
      = (Finset.univ : Finset (Fin 8192)).fold max negInf (fun k =>
          fifty * rScore (fun d => X (ix2 n d)) (fun k d => Y (ix3 (0 : Fin 1) k d)) (fun k => B (ix2 (0 : Fin 1) k)) k) := by
  have h : S4096x8192.Reduces [1] S4096 := by decide
  unfold val_main_v20
  rw [Host.reduce_eq_fold_single (FloatOps.maximumf (F := Ideal) (φ := .f32)) _ _ reducesTo_S4096x8192_S4096_d1 h h_S_]
  have hf : (val_main_v19 (F := Ideal) X Y B ∘ h.lift (ix1 n))
      = fun k : Fin 8192 =>
          fifty * rScore (fun d => X (ix2 n d)) (fun k d => Y (ix3 (0 : Fin 1) k d)) (fun k => B (ix2 (0 : Fin 1) k)) k :=
    funext fun k => (congrArg (val_main_v19 (F := Ideal) X Y B) (lift_row h n k)).trans (scaled_at X Y B n _)
  exact congrArg (fun f => Finset.fold max negInf f (Finset.univ : Finset (Fin 8192))) hf

/-- The maximum the softmax shifts by. -/
theorem max_at (n : Fin 4096) :
    val_main_v22 (F := Ideal) X Y B (ix1 n)
      = rMax (fun d => X (ix2 n d)) (fun k d => Y (ix3 (0 : Fin 1) k d)) (fun k => B (ix2 (0 : Fin 1) k)) := by
  rw [val_main_v22_apply, val_main_v21_apply, val_main_cst_4_apply, fold_at, Ideal.maximumf_def, Ideal.ofBits_def]
  rfl

/-- The softmax's numerator. -/
theorem weight_at (n : Fin 4096) (k : Fin 8192) :
    val_main_v26 (F := Ideal) X Y B (ix2 n k)
      = rWeight (fun d => X (ix2 n d)) (fun k d => Y (ix3 (0 : Fin 1) k d)) (fun k => B (ix2 (0 : Fin 1) k)) k := by
  rw [val_main_v26_apply, val_main_v25_apply, scaled_at, val_main_v24_apply, val_main_v23_apply, idx_v24, max_at,
    Ideal.hostUnary_exp_def, Ideal.subf_def]
  rfl

/-- The softmax's denominator: the sum starts from 0. -/
theorem norm_at (n : Fin 4096) :
    val_main_v27 (F := Ideal) X Y B (ix1 n)
      = rNorm (fun d => X (ix2 n d)) (fun k d => Y (ix3 (0 : Fin 1) k d)) (fun k => B (ix2 (0 : Fin 1) k)) := by
  rw [val_main_v27_apply, val_main_cst_5_apply, Ideal.ofBits_def, Ideal.ofBits_zero_f32, zero_add]
  unfold rNorm
  refine Finset.sum_congr rfl fun k _ => ?_
  rw [idx_v27, weight_at]

/-- The softmax weight. -/
theorem prob_at (n : Fin 4096) (k : Fin 8192) :
    val_main_v30 (F := Ideal) X Y B (ix2 n k)
      = rProb (fun d => X (ix2 n d)) (fun k d => Y (ix3 (0 : Fin 1) k d)) (fun k => B (ix2 (0 : Fin 1) k)) k := by
  rw [val_main_v30_apply, weight_at, val_main_v29_apply, val_main_v28_apply, idx_v29, norm_at, Ideal.hostDivf_def]
  rfl

/-! ## The two results -/

/-- The value result at row n: the softmax-weighted sum of the scores (the sum starts from 0). -/
theorem ref_value (X : (⟨S4096x32, .f32⟩ : BufTy).Contents (Elt Ideal)) (Y : (⟨S1x8192x32, .f32⟩ : BufTy).Contents (Elt Ideal))
    (B : (⟨S1x8192, .f32⟩ : BufTy).Contents (Elt Ideal)) (n : Fin 4096) :
    Cert.ReferenceIdeal.Read.val_main_v32 (F := Ideal) X Y B (ix1 n)
      = rValue (fun d => X (ix2 n d)) (fun k d => Y (ix3 (0 : Fin 1) k d)) (fun k => B (ix2 (0 : Fin 1) k)) := by
  rw [val_main_v32_apply, val_main_cst_6_apply, Ideal.ofBits_def, Ideal.ofBits_zero_f32, zero_add]
  unfold rValue
  refine Finset.sum_congr rfl fun k _ => ?_
  rw [idx_v32, val_main_v31_apply, prob_at, score_at, Ideal.mulf_def]

/-- The selection result at row n, column q: the softmax-weighted sum of the candidates' column q. -/
theorem ref_choice (X : (⟨S4096x32, .f32⟩ : BufTy).Contents (Elt Ideal)) (Y : (⟨S1x8192x32, .f32⟩ : BufTy).Contents (Elt Ideal))
    (B : (⟨S1x8192, .f32⟩ : BufTy).Contents (Elt Ideal)) (n : Fin 4096) (q : Fin 32) :
    Cert.ReferenceIdeal.Read.val_main_v33 (F := Ideal) X Y B (ix2 n q)
      = rChoice (fun d => X (ix2 n d)) (fun k d => Y (ix3 (0 : Fin 1) k d)) (fun k => B (ix2 (0 : Fin 1) k)) q := by
  rw [val_main_v33_apply]
  unfold rChoice
  refine Finset.sum_congr rfl fun k _ => ?_
  rw [lidx_v33, prob_at, ridx_v33, table_at]

end Cert.ReferenceIdeal.RefRow

end
-- ==== Proof.RowBridge.lean ====
/-
  The reference's two results are the kernel's two whole-array functions, on arrays of reals.

  At row n both results depend on row n of X, on the candidate table and on the intercepts. When every
  entry of the three arrays is a real, the reference's row functions equal the kernel's (the row law:
  the reference's score is the kernel's shifted score minus |x|^2, which the softmax's shift by the row
  maximum cancels in the weights and which leaves the weighted mean of the scores lowered by |x|^2).
-/
import proofs.«157892_g22308060135433_cont_8to1_1792_2_alg».proof.Proof.SoftSelectLaw
import proofs.«157892_g22308060135433_cont_8to1_1792_2_alg».proof.Proof.SoftSelectArrays
import proofs.«157892_g22308060135433_cont_8to1_1792_2_alg».proof.Proof.RefRow

noncomputable section

namespace Cert.ReferenceIdeal.RowBridge

open Idealize.ShloMosaic Idealize.ShloMosaic.ValueIdx Cert.ReferenceIdeal Cert.SoftSelect

variable (X : (⟨S4096x32, .f32⟩ : BufTy).Contents (Elt Ideal)) (Y : (⟨S1x8192x32, .f32⟩ : BufTy).Contents (Elt Ideal))
  (B : (⟨S1x8192, .f32⟩ : BufTy).Contents (Elt Ideal))

/-- The reference's selection result is the selection array of the arguments. -/
theorem choice_arr (hX : ∀ i, ∃ r : ℝ, X i = (r : EReal)) (hY : ∀ i, ∃ r : ℝ, Y i = (r : EReal))
    (hB : ∀ i, ∃ r : ℝ, B i = (r : EReal)) :
    Cert.ReferenceIdeal.Read.val_main_v33 (F := Ideal) X Y B = choiceArr X Y B := by
  funext i
  obtain ⟨n, q, rfl⟩ : ∃ (n : Fin 4096) (q : Fin 32), i = ix2 n q := ⟨i 0, i 1, eq_ix2 i⟩
  choose xr hxr using hX
  choose yr hyr using hY
  choose br hbr using hB
  have e1 : xRow X n = fun d => ((xr (ix2 n d) : ℝ) : EReal) := funext fun d => hxr _
  have e2 : yTab Y = fun k d => ((yr (ix3 (0 : Fin 1) k d) : ℝ) : EReal) := funext fun k => funext fun d => hyr _
  have e3 : bRow B = fun k => ((br (ix2 (0 : Fin 1) k) : ℝ) : EReal) := funext fun k => hbr _
  rw [RefRow.ref_choice, choiceArr_ix2]
  show rChoice (xRow X n) (yTab Y) (bRow B) q = kChoice (xRow X n) (yTab Y) (bRow B) q
  rw [e1, e2, e3]
  exact (choice_eq (fun d => xr (ix2 n d)) (fun k d => yr (ix3 (0 : Fin 1) k d)) (fun k => br (ix2 (0 : Fin 1) k)) q).symm

/-- The reference's value result is the value array of the arguments. -/
theorem value_arr (hX : ∀ i, ∃ r : ℝ, X i = (r : EReal)) (hY : ∀ i, ∃ r : ℝ, Y i = (r : EReal))
    (hB : ∀ i, ∃ r : ℝ, B i = (r : EReal)) :
    Cert.ReferenceIdeal.Read.val_main_v32 (F := Ideal) X Y B = valueArr X Y B := by
  funext i
  obtain ⟨n, rfl⟩ : ∃ (n : Fin 4096), i = ix1 n := ⟨i 0, eq_ix1 i⟩
  choose xr hxr using hX
  choose yr hyr using hY
  choose br hbr using hB
  have e1 : xRow X n = fun d => ((xr (ix2 n d) : ℝ) : EReal) := funext fun d => hxr _
  have e2 : yTab Y = fun k d => ((yr (ix3 (0 : Fin 1) k d) : ℝ) : EReal) := funext fun k => funext fun d => hyr _
  have e3 : bRow B = fun k => ((br (ix2 (0 : Fin 1) k) : ℝ) : EReal) := funext fun k => hbr _
  rw [RefRow.ref_value, valueArr_ix1]
  show rValue (xRow X n) (yTab Y) (bRow B) = kValue (xRow X n) (yTab Y) (bRow B)
  rw [e1, e2, e3]
  exact (value_eq (fun d => xr (ix2 n d)) (fun k d => yr (ix3 (0 : Fin 1) k d)) (fun k => br (ix2 (0 : Fin 1) k))).symm

end Cert.ReferenceIdeal.RowBridge

end
-- ==== Proof.FiniteInputs.lean ====
/-
  The printed precondition read back: every entry of the three arrays is a real number.

  Of each array the precondition says that every entry's absolute value is below +inf, and it joins the three
  statements by "and". An extended real x whose absolute value max x (-x) is below ⊤ is neither ⊤ nor ⊥ (either would
  make the maximum ⊤), hence it is the image of a real.
-/
import proofs.«157892_g22308060135433_cont_8to1_1792_2_alg».proof.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

namespace Cert.Pre_finite_inputs.Finite

open Idealize.ShloMosaic Cert.Pre_finite_inputs

/-- The scalar shape has one index. -/
instance : Subsingleton S_.Idx := ⟨fun a b => funext fun d => d.elim0⟩

/-- An extended real whose absolute value is below ⊤ is a real: ⊥ and ⊤ both have absolute value ⊤. -/
theorem real_of_abs_lt_top (x : EReal) (h : max x (-x) < ⊤) : ∃ r : ℝ, x = (r : EReal) := by
  induction x using EReal.rec with
  | bot => simp at h
  | coe r => exact ⟨r, rfl⟩
  | top => simp at h

/-- An ordered "less than" that holds is the order's strict inequality. -/
theorem lt_of_cmp_olt (a b : EReal) (h : Ideal.cmp .olt a b = 1#1) : a < b := by
  by_contra hn
  simp [Ideal.cmp, hn] at h

/-- The word 0x7F800000 is +inf. -/
theorem ofBits_inf : Ideal.ofBits .f32 0x7F800000#32 = (⊤ : EReal) := by simp [Ideal.ofBits, Ideal.ieee]

/-- The test of one entry, |x| < +inf, makes the entry a real. -/
theorem real_of_test (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [Ideal.hostAbsf_def, Ideal.absf_def, Ideal.cmpf_def, ofBits_inf] at h
  exact real_of_abs_lt_top x (lt_of_cmp_olt _ _ h)

/-- One array of any shape: if "every entry's absolute value is below +inf", reduced by "and" over all axes to a
    scalar, is true, then every entry is a real. -/
theorem all_real {s : Shape} {axes : List (Fin s.rank)} (V : FVec Ideal s .f32)
    (hb : S_.BroadcastsInDim s (![] : Fin 0 → Fin s.rank)) (hr : s.ReducesTo axes S_) (hu : 0 < S_.numel)
    (e : Host.reduce IntOp.andi
        (cmpf .olt (Host.absf V) (broadcastInDim s ![] hb (constant (F := Ideal) S_ .f32 0x7F800000#32)))
        (constantI S_ 1 1#1) hr hu ValueIdx.ix0 = 1#1) (i : s.Idx) : ∃ r : ℝ, V i = (r : EReal) := by
  have hi := Host.reduce_andi_all _ _ hr hu ValueIdx.ix0 e i
  rw [ValueIdx.cmpf_apply, broadcastInDim_apply _ hb _ i ValueIdx.ix0 (fun a => a.elim0)] at hi
  exact real_of_test (V i) hi

/-- The precondition makes every entry of X, of Y and of the intercepts a real. -/
theorem real_of_pre [Cert.Pre_finite_inputs.Facts] (X : FVec Ideal Cert.Pre_finite_inputs.S4096x32 .f32)
    (Y : FVec Ideal Cert.Pre_finite_inputs.S1x8192x32 .f32) (B : FVec Ideal Cert.Pre_finite_inputs.S1x8192 .f32)
    (h : Cert.Pre_finite_inputs.fn (F := Ideal) X Y B = fun _ => 1#1) :
    (∀ i, ∃ r : ℝ, X i = (r : EReal)) ∧ (∀ i, ∃ r : ℝ, Y i = (r : EReal)) ∧ (∀ i, ∃ r : ℝ, B i = (r : EReal)) := by
  have h0 := congrFun h ValueIdx.ix0
  dsimp only [fn] at h0
  obtain ⟨h12, h3⟩ := IntOp.andi_eq_one.1 h0
  obtain ⟨h1, h2⟩ := IntOp.andi_eq_one.1 h12
  exact ⟨all_real X _ _ _ h1, all_real Y _ _ _ h2, all_real B _ _ _ h3⟩

end Cert.Pre_finite_inputs.Finite
-- ==== Proof.lean ====
/-
  The certificate's claims for the fused softmax-selection kernel against its reference.

  For each of the 4096 rows x of X the kernel scores the 8192 candidates y_k by
  s_k = 2 <x, y_k> - (|y_k|^2 + b_k), weighs them by e_k = exp (50 (s_k - max_j s_j)) and returns the
  weighted mean of the candidates and the weighted mean of the scores minus |x|^2. The reference scores
  them by r_k = -((|x|^2 - 2 <x, y_k>) + |y_k|^2) - b_k = s_k - |x|^2 and returns the softmax-weighted
  sums of the candidates and of the r_k. On finite inputs every quantity is a real; the row constant
  |x|^2 cancels in the shifted exponents and comes out of the weighted mean of the scores, because the
  weights divided by their (positive) sum add up to one. Both programs therefore end with the same two
  arrays, given index by index by the row functions of the specification.

  The three frames are the programs' runs with the results dropped; the ideal pass rewrote nothing, so
  the kernel's idealization is its own text.
-/
import proofs.«157892_g22308060135433_cont_8to1_1792_2_alg».proof.Defs
import proofs.«157892_g22308060135433_cont_8to1_1792_2_alg».proof.Proof.Gen.Kernel
import proofs.«157892_g22308060135433_cont_8to1_1792_2_alg».proof.Proof.Gen.Kernel.Skeleton
import proofs.«157892_g22308060135433_cont_8to1_1792_2_alg».proof.Proof.Gen.Kernel.Launch
import proofs.«157892_g22308060135433_cont_8to1_1792_2_alg».proof.Proof.Gen.Kernel.Points
import proofs.«157892_g22308060135433_cont_8to1_1792_2_alg».proof.Proof.Gen.Kernel.Frame
import proofs.«157892_g22308060135433_cont_8to1_1792_2_alg».proof.Proof.Gen.KernelIdeal
import proofs.«157892_g22308060135433_cont_8to1_1792_2_alg».proof.Proof.Gen.KernelIdeal.Skeleton
import proofs.«157892_g22308060135433_cont_8to1_1792_2_alg».proof.Proof.Gen.KernelIdeal.Launch
import proofs.«157892_g22308060135433_cont_8to1_1792_2_alg».proof.Proof.Gen.KernelIdeal.Points
import proofs.«157892_g22308060135433_cont_8to1_1792_2_alg».proof.Proof.Gen.KernelIdeal.Frame
import proofs.«157892_g22308060135433_cont_8to1_1792_2_alg».proof.Proof.Gen.ReferenceIdeal
import proofs.«157892_g22308060135433_cont_8to1_1792_2_alg».proof.Proof.Gen.Pre_finite_inputs
import proofs.«157892_g22308060135433_cont_8to1_1792_2_alg».proof.Proof.Gen.KernelIdeal.Value
import proofs.«157892_g22308060135433_cont_8to1_1792_2_alg».proof.Proof.Gen.ReferenceIdeal.Run
import proofs.«157892_g22308060135433_cont_8to1_1792_2_alg».proof.Proof.Gen.ReferenceIdeal.Read
import proofs.«157892_g22308060135433_cont_8to1_1792_2_alg».proof.Proof.KernelArray
import proofs.«157892_g22308060135433_cont_8to1_1792_2_alg».proof.Proof.RowBridge
import proofs.«157892_g22308060135433_cont_8to1_1792_2_alg».proof.Proof.FiniteInputs
import Idealize.ShloMosaic.Adequacy
import Idealize.ShloMosaic.Init

noncomputable section

namespace Cert.Proof

open Idealize.ShloMosaic Idealize.ShloMosaic.TcCoe Idealize.SL.Sem Cert.SoftSelect

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on finite arguments both programs end with the selection array and the value
    array of the arguments: the kernel block by block, the reference operation by operation, the two
    row functions equal on reals. -/
theorem algebraic : Cert.algebraic_KernelIdeal_ReferenceIdeal := by
  intro m ρ m' ρ' hpre hagree
  refine ⟨fun c => choiceArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => valueArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    Cert.KernelIdeal.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hX, hY, hB⟩ := Cert.Pre_finite_inputs.Finite.real_of_pre _ _ _ (hpre c)
    rw [Cert.ReferenceIdeal.Read.val_main_v33_eq, (hagree c).1, (hagree c).2.1, (hagree c).2.2]
    exact Cert.ReferenceIdeal.RowBridge.choice_arr _ _ _ hX hY hB
  · obtain ⟨hX, hY, hB⟩ := Cert.Pre_finite_inputs.Finite.real_of_pre _ _ _ (hpre c)
    rw [Cert.ReferenceIdeal.Read.val_main_v32_eq, (hagree c).1, (hagree c).2.1, (hagree c).2.2]
    exact Cert.ReferenceIdeal.RowBridge.value_arr _ _ _ hX hY hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
